-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x96 : Shape := ⟨3, ![16, 256, 96]⟩
abbrev S96x128 : Shape := ⟨2, ![96, 128]⟩
abbrev S128 : Shape := ⟨1, ![128]⟩
abbrev S384x128 : Shape := ⟨2, ![384, 128]⟩
abbrev S256x128 : Shape := ⟨2, ![256, 128]⟩
abbrev S_ : Shape := ⟨0, ![]⟩

class Facts : Prop where
  bcast_S_S16x256x96 : S_.BroadcastsInDim S16x256x96 (![] : Fin 0 → Fin S16x256x96.rank)
  reducesTo_S16x256x96_S_d0_1_2 : S16x256x96.ReducesTo [0, 1, 2] S_
  h_S_ : 0 < S_.numel
  bcast_S_S96x128 : S_.BroadcastsInDim S96x128 (![] : Fin 0 → Fin S96x128.rank)
  reducesTo_S96x128_S_d0_1 : S96x128.ReducesTo [0, 1] S_
  bcast_S_S128 : S_.BroadcastsInDim S128 (![] : Fin 0 → Fin S128.rank)
  reducesTo_S128_S_d0 : S128.ReducesTo [0] S_
  bcast_S_S384x128 : S_.BroadcastsInDim S384x128 (![] : Fin 0 → Fin S384x128.rank)
  reducesTo_S384x128_S_d0_1 : S384x128.ReducesTo [0, 1] S_
  bcast_S_S256x128 : S_.BroadcastsInDim S256x128 (![] : Fin 0 → Fin S256x128.rank)
  reducesTo_S256x128_S_d0_1 : S256x128.ReducesTo [0, 1] S_

variable [Facts]

def fn_part2 {F : FTy → Type} [FloatOps F] (main_arg7 : FVec F S256x128 .f32) (main_arg8 : FVec F S96x128 .f32) (main_v33 : IVec S_ 1) : IVec S_ 1 :=
  let main_v34 : FVec F S256x128 .f32 := Host.absf main_arg7
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S96x128 .f32 := Host.absf main_arg8
  let main_cst_14 : FVec F S_ .f32 := constant S_ .f32 0x7F800000#32
  let main_v40 : FVec F S96x128 .f32 := broadcastInDim S96x128 ![] bcast_S_S96x128 main_cst_14
  let main_v41 : IVec S96x128 1 := cmpf .olt main_v39 main_v40
  let main_c_15 : IVec S_ 1 := constantI S_ 1 1#1
  let main_v42 : IVec S_ 1 := (fun x v => Host.reduce IntOp.andi x v reducesTo_S96x128_S_d0_1 h_S_) main_v41 main_c_15
  let main_v43 : IVec S_ 1 := andi main_v38 main_v42
  main_v43

def fn_part1 {F : FTy → Type} [FloatOps F] (main_arg4 : FVec F S128 .f32) (main_arg5 : FVec F S128 .f32) (main_arg6 : FVec F S128 .f32) (main_arg7 : FVec F S256x128 .f32) (main_arg8 : FVec F S96x128 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S16x256x96 .f32) (main_arg1 : FVec F S96x128 .f32) (main_arg2 : FVec F S128 .f32) (main_arg3 : FVec F S384x128 .f32) (main_arg4 : FVec F S128 .f32) (main_arg5 : FVec F S128 .f32) (main_arg6 : FVec F S128 .f32) (main_arg7 : FVec F S256x128 .f32) (main_arg8 : FVec F S96x128 .f32) : IVec S_ 1 :=
  let main_v0 : FVec F S16x256x96 .f32 := Host.absf main_arg0
  let main_cst : FVec F S_ .f32 := constant S_ .f32 0x7F800000#32
  let main_v1 : FVec F S16x256x96 .f32 := broadcastInDim S16x256x96 ![] bcast_S_S16x256x96 main_cst
  let main_v2 : IVec S16x256x96 1 := cmpf .olt main_v0 main_v1
  let main_c : IVec S_ 1 := constantI S_ 1 1#1
  let main_v3 : IVec S_ 1 := (fun x v => Host.reduce IntOp.andi x v reducesTo_S16x256x96_S_d0_1_2 h_S_) main_v2 main_c
  let main_v4 : FVec F S96x128 .f32 := Host.absf main_arg1
  let main_cst_0 : FVec F S_ .f32 := constant S_ .f32 0x7F800000#32
  let main_v5 : FVec F S96x128 .f32 := broadcastInDim S96x128 ![] bcast_S_S96x128 main_cst_0
  let main_v6 : IVec S96x128 1 := cmpf .olt main_v4 main_v5
  let main_c_1 : IVec S_ 1 := constantI S_ 1 1#1
  let main_v7 : IVec S_ 1 := (fun x v => Host.reduce IntOp.andi x v reducesTo_S96x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S384x128 .f32 := Host.absf main_arg3
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg4 main_arg5 main_arg6 main_arg7 main_arg8 main_v13 main_v16
-- ==== Kernel.lean ====
abbrev S16x256x96 : Shape := ⟨3, ![16, 256, 96]⟩
abbrev S96x128 : Shape := ⟨2, ![96, 128]⟩
abbrev S128 : Shape := ⟨1, ![128]⟩
abbrev S384x128 : Shape := ⟨2, ![384, 128]⟩
abbrev S256x128 : Shape := ⟨2, ![256, 128]⟩
abbrev S1x128 : Shape := ⟨2, ![1, 128]⟩
abbrev S16x256x96x128 : Shape := ⟨4, ![16, 256, 96, 128]⟩
abbrev S1x128x96 : Shape := ⟨3, ![1, 128, 96]⟩
abbrev S128x128 : Shape := ⟨2, ![128, 128]⟩
abbrev S1x128x96x128 : Shape := ⟨4, ![1, 128, 96, 128]⟩
abbrev S128x96 : Shape := ⟨2, ![128, 96]⟩
abbrev S128x1x128 : Shape := ⟨3, ![128, 1, 128]⟩
abbrev S1x96x128 : Shape := ⟨3, ![1, 96, 128]⟩
abbrev S128x96x128 : Shape := ⟨3, ![128, 96, 128]⟩
abbrev S128x96x1 : Shape := ⟨3, ![128, 96, 1]⟩
abbrev S1x1x128 : Shape := ⟨3, ![1, 1, 128]⟩

abbrev nBuf : Space → Nat
  | .hbm => 14
  | .vmem => 13
  | .smem => 0
  | _ => 0

abbrev bufTy : (tb : Table) → Fin (tcTables nBuf tb) → BufTy
  | .hbm, ⟨0, _⟩ => ⟨S16x256x96, .f32⟩
  | .hbm, ⟨1, _⟩ => ⟨S96x128, .f32⟩
  | .hbm, ⟨2, _⟩ => ⟨S128, .f32⟩
  | .hbm, ⟨3, _⟩ => ⟨S384x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S256x128, .f32⟩
  | .hbm, ⟨8, _⟩ => ⟨S96x128, .f32⟩
  | .hbm, ⟨9, _⟩ => ⟨S1x128, .f32⟩
  | .hbm, ⟨10, _⟩ => ⟨S1x128, .f32⟩
  | .hbm, ⟨11, _⟩ => ⟨S1x128, .f32⟩
  | .hbm, ⟨12, _⟩ => ⟨S1x128, .f32⟩
  | .hbm, ⟨13, _⟩ => ⟨S16x256x96x128, .f32⟩
  | .local _ .vmem, ⟨0, _⟩ => ⟨S1x128x96, .f32⟩
  | .local _ .vmem, ⟨1, _⟩ => ⟨S1x128x96, .f32⟩
  | .local _ .vmem, ⟨2, _⟩ => ⟨S96x128, .f32⟩
  | .local _ .vmem, ⟨3, _⟩ => ⟨S1x128, .f32⟩
  | .local _ .vmem, ⟨4, _⟩ => ⟨S384x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S128x128, .f32⟩
  | .local _ .vmem, ⟨9, _⟩ => ⟨S128x128, .f32⟩
  | .local _ .vmem, ⟨10, _⟩ => ⟨S96x128, .f32⟩
  | .local _ .vmem, ⟨11, _⟩ => ⟨S1x128x96x128, .f32⟩
  | .local _ .vmem, ⟨12, _⟩ => ⟨S1x128x96x128, .f32⟩
  | _, _ => ⟨S16x256x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S96x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S384x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S96x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x128x96x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  shapeCasts_S128_S1x128 : S128.ShapeCasts S1x128
  inb_S1x128x96_S1x128x96_0_0_0 : ∀ a, (![0, 0, 0] : Fin 3 → Nat) a + S1x128x96.size a ≤ S1x128x96.size a
  h_S1x128x96 : 0 < S1x128x96.numel
  shapeCasts_S1x128x96_S128x96 : S1x128x96.ShapeCasts S128x96
  inb_S96x128_S96x128_0_0 : ∀ a, (![0, 0] : Fin 2 → Nat) a + S96x128.size a ≤ S96x128.size a
  h_S96x128 : 0 < S96x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S128x128 : S1x128.Broadcasts S128x128
  inb_S384x128_S384x128_0_0 : ∀ a, (![0, 0] : Fin 2 → Nat) a + S384x128.size a ≤ S384x128.size a
  h_S384x128 : 0 < S384x128.numel
  slices_S384x128_o0_0_S128x128 : S384x128.Slices ![0, 0] S128x128
  slices_S384x128_o128_0_S128x128 : S384x128.Slices ![128, 0] S128x128
  slices_S384x128_o256_0_S128x128 : S384x128.Slices ![256, 0] S128x128
  inb_S128x128_S128x128_0_0 : ∀ a, (![0, 0] : Fin 2 → Nat) a + S128x128.size a ≤ S128x128.size a
  h_S128x128 : 0 < S128x128.numel
  shapeCasts_S128x128_S128x1x128 : S128x128.ShapeCasts S128x1x128
  shapeCasts_S96x128_S1x96x128 : S96x128.ShapeCasts S1x96x128
  broadcasts_S128x1x128_S128x96x128 : S128x1x128.Broadcasts S128x96x128
  broadcasts_S1x96x128_S128x96x128 : S1x96x128.Broadcasts S128x96x128
  reduces_S128x96x128_S128x96 : S128x96x128.Reduces [2] S128x96
  shapeCasts_S128x96_S128x96x1 : S128x96.ShapeCasts S128x96x1
  broadcasts_S128x96x1_S128x96x128 : S128x96x1.Broadcasts S128x96x128
  shapeCasts_S1x128_S1x1x128 : S1x128.ShapeCasts S1x1x128
  broadcasts_S1x1x128_S128x96x128 : S1x1x128.Broadcasts S128x96x128
  inb_S1x128x96x128_S1x128x96x128_0_0_0_0 : ∀ a, (![0, 0, 0, 0] : Fin 4 → Nat) a + S1x128x96x128.size a ≤ S1x128x96x128.size a
  h_S1x128x96x128 : 0 < S1x128x96x128.numel
  shapeCasts_S1x128x96x128_S128x96x128 : S1x128x96x128.ShapeCasts S128x96x128
  shapeCasts_S128x96x128_S1x128x96x128 : S128x96x128.ShapeCasts S1x128x96x128
  dot_S128x96_S96x128_S128x128_1_0_0_1_n_n_wf : DotDims.WF S128x96 S96x128 S128x128 [1] [0] [0] [1] [] []
  dot_S128x128_S128x128_S128x128_1_0_0_1_n_n_wf : DotDims.WF S128x128 S128x128 S128x128 [1] [0] [0] [1] [] []
  dot_S96x128_S128x128_S96x128_1_0_0_1_n_n_wf : DotDims.WF S96x128 S128x128 S96x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x96.size a ≤ S16x256x96.size a
  hwx0_0 : ∀ i : grid0.Coords, EltTy.bits .f32 = 32 ∨ (Rect.block (s := S16x256x96) S1x128x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x128.size a ≤ S96x128.size a
  hwx0_1 : ∀ i : grid0.Coords, EltTy.bits .f32 = 32 ∨ (Rect.block (s := S96x128) S96x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x128.size a ≤ S384x128.size a
  hwx0_3 : ∀ i : grid0.Coords, EltTy.bits .f32 = 32 ∨ (Rect.block (s := S384x128) S384x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S256x128.size a
  hwx0_7 : ∀ i : grid0.Coords, EltTy.bits .f32 = 32 ∨ (Rect.block (s := S256x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S96x128.size a ≤ S96x128.size a
  hwx0_8 : ∀ i : grid0.Coords, EltTy.bits .f32 = 32 ∨ (Rect.block (s := S96x128) S96x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x128x96x128.size a ≤ S16x256x96x128.size a
  hwx0_9 : ∀ i : grid0.Coords, EltTy.bits .f32 = 32 ∨ (Rect.block (s := S16x256x96x128) S1x128x96x128.size (cc0_transform_9 i) (hinb0_9 i)).WholeWords (EltTy.packing .f32)

variable [Facts₀]

def dot_S128x96_S96x128_S128x128_1_0_0_1_n_n : DotDims S128x96 S96x128 S128x128 where
  lhsContracting := [1]
  rhsContracting := [0]
  lhsNonContracting := [0]
  rhsNonContracting := [1]
  lhsBatch := []
  rhsBatch := []
  wf := dot_S128x96_S96x128_S128x128_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S96x128_S128x128_S96x128_1_0_0_1_n_n : DotDims S96x128 S128x128 S96x128 where
  lhsContracting := [1]
  rhsContracting := [0]
  lhsNonContracting := [0]
  rhsNonContracting := [1]
  lhsBatch := []
  rhsBatch := []
  wf := dot_S96x128_S128x128_S96x128_1_0_0_1_n_n_wf

abbrev win0_0 : Pipeline.Window sig grid0 :=
  Pipeline.Window.ofSpec (Memref.whole main_arg0) S1x128x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S96x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S384x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S96x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S1x128x96x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16x256x96 : Shape := ⟨3, ![16, 256, 96]⟩
abbrev S96x128 : Shape := ⟨2, ![96, 128]⟩
abbrev S128 : Shape := ⟨1, ![128]⟩
abbrev S384x128 : Shape := ⟨2, ![384, 128]⟩
abbrev S256x128 : Shape := ⟨2, ![256, 128]⟩
abbrev S16x256x128 : Shape := ⟨3, ![16, 256, 128]⟩
abbrev S1x1x128 : Shape := ⟨3, ![1, 1, 128]⟩
abbrev S128x128 : Shape := ⟨2, ![128, 128]⟩
abbrev S16x256x1x128 : Shape := ⟨4, ![16, 256, 1, 128]⟩
abbrev S1x256x1x128 : Shape := ⟨4, ![1, 256, 1, 128]⟩
abbrev S1x1x96x128 : Shape := ⟨4, ![1, 1, 96, 128]⟩
abbrev S16x256x96x128 : Shape := ⟨4, ![16, 256, 96, 128]⟩
abbrev S1x1x1x128 : Shape := ⟨4, ![1, 1, 1, 128]⟩
abbrev S_ : Shape := ⟨0, ![]⟩
abbrev S16x256x96x1 : Shape := ⟨4, ![16, 256, 96, 1]⟩

abbrev nBuf : Space → Nat
  | .hbm => 62
  | .vmem => 0
  | .smem => 0
  | _ => 0

abbrev bufTy : (tb : Table) → Fin (tcTables nBuf tb) → BufTy
  | .hbm, ⟨0, _⟩ => ⟨S16x256x96, .f32⟩
  | .hbm, ⟨1, _⟩ => ⟨S96x128, .f32⟩
  | .hbm, ⟨2, _⟩ => ⟨S128, .f32⟩
  | .hbm, ⟨3, _⟩ => ⟨S384x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S256x128, .f32⟩
  | .hbm, ⟨8, _⟩ => ⟨S96x128, .f32⟩
  | .hbm, ⟨9, _⟩ => ⟨S16x256x128, .f32⟩
  | .hbm, ⟨10, _⟩ => ⟨S1x1x128, .f32⟩
  | .hbm, ⟨11, _⟩ => ⟨S16x256x128, .f32⟩
  | .hbm, ⟨12, _⟩ => ⟨S16x256x128, .f32⟩
  | .hbm, ⟨13, _⟩ => ⟨S128x128, .f32⟩
  | .hbm, ⟨14, _⟩ => ⟨S128x128, .f32⟩
  | .hbm, ⟨15, _⟩ => ⟨S128x128, .f32⟩
  | .hbm, ⟨16, _⟩ => ⟨S16x256x128, .f32⟩
  | .hbm, ⟨17, _⟩ => ⟨S16x256x1x128, .f32⟩
  | .hbm, ⟨18, _⟩ => ⟨S256x128, .f32⟩
  | .hbm, ⟨19, _⟩ => ⟨S1x256x1x128, .f32⟩
  | .hbm, ⟨20, _⟩ => ⟨S16x256x1x128, .f32⟩
  | .hbm, ⟨21, _⟩ => ⟨S16x256x1x128, .f32⟩
  | .hbm, ⟨22, _⟩ => ⟨S96x128, .f32⟩
  | .hbm, ⟨23, _⟩ => ⟨S1x1x96x128, .f32⟩
  | .hbm, ⟨24, _⟩ => ⟨S16x256x96x128, .f32⟩
  | .hbm, ⟨25, _⟩ => ⟨S16x256x96x128, .f32⟩
  | .hbm, ⟨26, _⟩ => ⟨S16x256x96x128, .f32⟩
  | .hbm, ⟨27, _⟩ => ⟨S1x1x1x128, .f32⟩
  | .hbm, ⟨28, _⟩ => ⟨S16x256x96x128, .f32⟩
  | .hbm, ⟨29, _⟩ => ⟨S16x256x96x128, .f32⟩
  | .hbm, ⟨30, _⟩ => ⟨S_, .f32⟩
  | .hbm, ⟨31, _⟩ => ⟨S16x256x96x128, .f32⟩
  | .hbm, ⟨32, _⟩ => ⟨S16x256x96x128, .f32⟩
  | .hbm, ⟨33, _⟩ => ⟨S_, .f32⟩
  | .hbm, ⟨34, _⟩ => ⟨S16x256x96, .f32⟩
  | .hbm, ⟨35, _⟩ => ⟨S16x256x96x1, .f32⟩
  | .hbm, ⟨36, _⟩ => ⟨S_, .f32⟩
  | .hbm, ⟨37, _⟩ => ⟨S16x256x96x1, .f32⟩
  | .hbm, ⟨38, _⟩ => ⟨S16x256x96x1, .f32⟩
  | .hbm, ⟨39, _⟩ => ⟨S16x256x96x128, .f32⟩
  | .hbm, ⟨40, _⟩ => ⟨S16x256x96x128, .f32⟩
  | .hbm, ⟨41, _⟩ => ⟨S16x256x96x128, .f32⟩
  | .hbm, ⟨42, _⟩ => ⟨S_, .f32⟩
  | .hbm, ⟨43, _⟩ => ⟨S16x256x96, .f32⟩
  | .hbm, ⟨44, _⟩ => ⟨S16x256x96x1, .f32⟩
  | .hbm, ⟨45, _⟩ => ⟨S_, .f32⟩
  | .hbm, ⟨46, _⟩ => ⟨S16x256x96x1, .f32⟩
  | .hbm, ⟨47, _⟩ => ⟨S16x256x96x1, .f32⟩
  | .hbm, ⟨48, _⟩ => ⟨S16x256x96x128, .f32⟩
  | .hbm, ⟨49, _⟩ => ⟨S16x256x96x128, .f32⟩
  | .hbm, ⟨50, _⟩ => ⟨S_, .f32⟩
  | .hbm, ⟨51, _⟩ => ⟨S16x256x96x1, .f32⟩
  | .hbm, ⟨52, _⟩ => ⟨S16x256x96x1, .f32⟩
  | .hbm, ⟨53, _⟩ => ⟨S16x256x96x1, .f32⟩
  | .hbm, ⟨54, _⟩ => ⟨S16x256x96x128, .f32⟩
  | .hbm, ⟨55, _⟩ => ⟨S16x256x96x128, .f32⟩
  | .hbm, ⟨56, _⟩ => ⟨S1x1x1x128, .f32⟩
  | .hbm, ⟨57, _⟩ => ⟨S16x256x96x128, .f32⟩
  | .hbm, ⟨58, _⟩ => ⟨S16x256x96x128, .f32⟩
  | .hbm, ⟨59, _⟩ => ⟨S1x1x1x128, .f32⟩
  | .hbm, ⟨60, _⟩ => ⟨S16x256x96x128, .f32⟩
  | .hbm, ⟨61, _⟩ => ⟨S16x256x96x128, .f32⟩
  | _, _ => ⟨S16x256x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_call0_cst : Ref sig .tc := ⟨.hbm, 30, rfl⟩
abbrev main_call0_v0 : Ref sig .tc := ⟨.hbm, 31, rfl⟩
abbrev main_v21 : Ref sig .tc := ⟨.hbm, 32, rfl⟩
abbrev main_cst : Ref sig .tc := ⟨.hbm, 33, rfl⟩
abbrev main_v22 : Ref sig .tc := ⟨.hbm, 34, rfl⟩
abbrev main_v23 : Ref sig .tc := ⟨.hbm, 35, rfl⟩
abbrev main_cst_0 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_1 : Ref sig .tc := ⟨.hbm, 42, rfl⟩
abbrev main_v29 : Ref sig .tc := ⟨.hbm, 43, rfl⟩
abbrev main_v30 : Ref sig .tc := ⟨.hbm, 44, rfl⟩
abbrev main_cst_2 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_3 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S16x256x128_0_1_2 : S1x1x128.BroadcastsInDim S16x256x128 (![0, 1, 2] : Fin 3 → Fin S16x256x128.rank)
  slices_S384x128_S128x128_0_0 : S384x128.Slices ![0, 0] S128x128
  slices_S384x128_S128x128_128_0 : S384x128.Slices ![128, 0] S128x128
  slices_S384x128_S128x128_256_0 : S384x128.Slices ![256, 0] S128x128
  bcast_S16x256x128_S16x256x1x128_0_1_3 : S16x256x128.BroadcastsInDim S16x256x1x128 (![0, 1, 3] : Fin 3 → Fin S16x256x1x128.rank)
  bcast_S256x128_S1x256x1x128_1_3 : S256x128.BroadcastsInDim S1x256x1x128 (![1, 3] : Fin 2 → Fin S1x256x1x128.rank)
  bcast_S1x256x1x128_S16x256x1x128_0_1_2_3 : S1x256x1x128.BroadcastsInDim S16x256x1x128 (![0, 1, 2, 3] : Fin 4 → Fin S16x256x1x128.rank)
  bcast_S96x128_S1x1x96x128_2_3 : S96x128.BroadcastsInDim S1x1x96x128 (![2, 3] : Fin 2 → Fin S1x1x96x128.rank)
  bcast_S16x256x1x128_S16x256x96x128_0_1_2_3 : S16x256x1x128.BroadcastsInDim S16x256x96x128 (![0, 1, 2, 3] : Fin 4 → Fin S16x256x96x128.rank)
  bcast_S1x1x96x128_S16x256x96x128_0_1_2_3 : S1x1x96x128.BroadcastsInDim S16x256x96x128 (![0, 1, 2, 3] : Fin 4 → Fin S16x256x96x128.rank)
  bcast_S128_S1x1x1x128_3 : S128.BroadcastsInDim S1x1x1x128 (![3] : Fin 1 → Fin S1x1x1x128.rank)
  bcast_S1x1x1x128_S16x256x96x128_0_1_2_3 : S1x1x1x128.BroadcastsInDim S16x256x96x128 (![0, 1, 2, 3] : Fin 4 → Fin S16x256x96x128.rank)
  bcast_S_S16x256x96x128 : S_.BroadcastsInDim S16x256x96x128 (![] : Fin 0 → Fin S16x256x96x128.rank)
  reducesTo_S16x256x96x128_S16x256x96_d3 : S16x256x96x128.ReducesTo [3] S16x256x96
  h_S_ : 0 < S_.numel
  bcast_S16x256x96_S16x256x96x1_0_1_2 : S16x256x96.BroadcastsInDim S16x256x96x1 (![0, 1, 2] : Fin 3 → Fin S16x256x96x1.rank)
  bcast_S_S16x256x96x1 : S_.BroadcastsInDim S16x256x96x1 (![] : Fin 0 → Fin S16x256x96x1.rank)
  bcast_S16x256x96x1_S16x256x96x128_0_1_2_3 : S16x256x96x1.BroadcastsInDim S16x256x96x128 (![0, 1, 2, 3] : Fin 4 → Fin S16x256x96x128.rank)
  dot_S16x256x96_S96x128_S16x256x128_2_0_01_1_n_n_wf : DotDims.WF S16x256x96 S96x128 S16x256x128 [2] [0] [0, 1] [1] [] []
  dot_S16x256x128_S128x128_S16x256x128_2_0_01_1_n_n_wf : DotDims.WF S16x256x128 S128x128 S16x256x128 [2] [0] [0, 1] [1] [] []
  dot_S256x128_S128x128_S256x128_1_0_0_1_n_n_wf : DotDims.WF S256x128 S128x128 S256x128 [1] [0] [0] [1] [] []
  dot_S96x128_S128x128_S96x128_1_0_0_1_n_n_wf : DotDims.WF S96x128 S128x128 S96x128 [1] [0] [0] [1] [] []

variable [Facts₀]

def dot_S16x256x96_S96x128_S16x256x128_2_0_01_1_n_n : DotDims S16x256x96 S96x128 S16x256x128 where
  lhsContracting := [2]
  rhsContracting := [0]
  lhsNonContracting := [0, 1]
  rhsNonContracting := [1]
  lhsBatch := []
  rhsBatch := []
  wf := dot_S16x256x96_S96x128_S16x256x128_2_0_01_1_n_n_wf
def dot_S16x256x128_S128x128_S16x256x128_2_0_01_1_n_n : DotDims S16x256x128 S128x128 S16x256x128 where
  lhsContracting := [2]
  rhsContracting := [0]
  lhsNonContracting := [0, 1]
  rhsNonContracting := [1]
  lhsBatch := []
  rhsBatch := []
  wf := dot_S16x256x128_S128x128_S16x256x128_2_0_01_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S96x128_S128x128_S96x128_1_0_0_1_n_n : DotDims S96x128 S128x128 S96x128 where
  lhsContracting := [1]
  rhsContracting := [0]
  lhsNonContracting := [0]
  rhsNonContracting := [1]
  lhsBatch := []
  rhsBatch := []
  wf := dot_S96x128_S128x128_S96x128_1_0_0_1_n_n_wf

class Facts : Prop extends Facts₀ where

variable [Facts]
-- ==== Proof.LayerSpec.lean ====
/-
  The function both programs compute, written once over the extended reals.

  For a batch entry `b`, a node `n`, a time step `t` and an output feature `k` the pre-activation is
    pre b n t k = ((Σ_h proj b n h · Wf[h, k]) + (Σ_h node[n, h] · Wf[128 + h, k])) + bf[k] + (Σ_h time[t, h] · Wf[256 + h, k]),
    proj b n h  = (Σ_s x[b, n, s] · Wp[s, h]) + bp[h],
  that is the row `[proj | node | time]` of length 384 times `Wf`, plus the bias. The result is the layer
  normalisation, along `k`, of the positive part of that row of 128 numbers: with `a_k = max (pre_k) 0`,
  `μ = (Σ_k a_k) / 128` and `v = (Σ_k (a_k − μ)²) / 128`,
    out b n t k = (a_k − μ) · (v + ε)^(-1/2) · γ[k] + β[k].
  The three float words that occur (`0`, `128` and `ε`) are the same words in both programs, so they are kept as
  words and never evaluated. Only one law of arithmetic separates the two programs: one adds the bias before the
  time term and the other after it, and addition of extended reals is commutative and associative
  (`add_right_comm`), at the infinities too, so no finiteness of the inputs is needed anywhere.
-/
import Idealize.ShloMosaic.PureOps.Ideal
import Idealize.ShloMosaic.PureOps.Ideal.Laws
import Idealize.ShloMosaic.Lib.ValueIdx

noncomputable section

namespace Cert.LayerSpec

open Idealize.ShloMosaic Idealize.ShloMosaic.ValueIdx

/-- The three float words both programs carry, as the extended reals they denote. -/
abbrev zeroW : EReal := Ideal.ofBits .f32 0x00000000#32
abbrev width : EReal := Ideal.ofBits .f32 0x43000000#32
abbrev eps : EReal := Ideal.ofBits .f32 0x3727C5AC#32

/-! ## Layer normalisation of the positive part of one row of 128 numbers -/

/-- The positive part of the row's entry `j`. -/
def act (p : Fin 128 → EReal) (j : Fin 128) : EReal := max (p j) zeroW

/-- The mean of the positive parts. -/
def mean (p : Fin 128 → EReal) : EReal := Ideal.div (∑ j : Fin 128, act p j) width

/-- The deviation of entry `j` from the mean. -/
def dev (p : Fin 128 → EReal) (j : Fin 128) : EReal := act p j - mean p

/-- The mean of the squared deviations. -/
def var (p : Fin 128 → EReal) : EReal := Ideal.div (∑ j : Fin 128, dev p j * dev p j) width

/-- The normalised row, scaled by `γ` and shifted by `β`. -/
def rowNorm (p γ β : Fin 128 → EReal) (k : Fin 128) : EReal :=
  dev p k * Ideal.rsqrt (var p + eps) * γ k + β k

/-- Rows that agree entry by entry have the same normalisation. -/
theorem rowNorm_congr {p q γ β γ' β' : Fin 128 → EReal} (hp : ∀ j, p j = q j) (hγ : ∀ j, γ j = γ' j)
    (hβ : ∀ j, β j = β' j) (k : Fin 128) : rowNorm p γ β k = rowNorm q γ' β' k := by
  have e1 : p = q := funext hp
  have e2 : γ = γ' := funext hγ
  have e3 : β = β' := funext hβ
  rw [e1, e2, e3]

/-! ## The pre-activation -/

/-- Row `o + h` of the 384-row weight matrix: `o = 0`, `128`, `256` select its three 128-row parts. -/
def wrow (o : Nat) (ho : o + 128 ≤ 384) (h : Fin 128) : Fin 384 := ⟨o + h.val, by have := h.isLt; omega⟩

section
variable (x : (⟨3, ![16, 256, 96]⟩ : Shape).Idx → EReal) (wp : (⟨2, ![96, 128]⟩ : Shape).Idx → EReal)
  (bp : (⟨1, ![128]⟩ : Shape).Idx → EReal) (wf : (⟨2, ![384, 128]⟩ : Shape).Idx → EReal)
  (bf : (⟨1, ![128]⟩ : Shape).Idx → EReal) (node : (⟨2, ![256, 128]⟩ : Shape).Idx → EReal)
  (tm : (⟨2, ![96, 128]⟩ : Shape).Idx → EReal)

/-- The input projection of `x[b, n, ·]`. -/
def proj (b : Fin 16) (n : Fin 256) (h : Fin 128) : EReal :=
  (∑ s : Fin 96, x (ix3 b n s) * wp (ix2 s h)) + bp (ix1 h)

/-- The projection's share of the pre-activation: through the first 128 rows of `Wf`. -/
def fromProj (b : Fin 16) (n : Fin 256) (k : Fin 128) : EReal :=
  ∑ h : Fin 128, proj x wp bp b n h * wf (ix2 (wrow 0 (by omega) h) k)

/-- The node embedding's share: through rows 128 to 255 of `Wf`. -/
def fromNode (n : Fin 256) (k : Fin 128) : EReal :=
  ∑ h : Fin 128, node (ix2 n h) * wf (ix2 (wrow 128 (by omega) h) k)

/-- The time embedding's share: through rows 256 to 383 of `Wf`. -/
def fromTime (t : Fin 96) (k : Fin 128) : EReal :=
  ∑ h : Fin 128, tm (ix2 t h) * wf (ix2 (wrow 256 (by omega) h) k)

/-- The pre-activation, the bias added before the time term. -/
def pre (b : Fin 16) (n : Fin 256) (t : Fin 96) (k : Fin 128) : EReal :=
  ((fromProj x wp bp wf b n k + fromNode wf node n k) + bf (ix1 k)) + fromTime wf tm t k

/-- The same number with the bias added after the time term. -/
theorem pre_eq_bias_last (b : Fin 16) (n : Fin 256) (t : Fin 96) (k : Fin 128) :
    ((fromProj x wp bp wf b n k + fromNode wf node n k) + fromTime wf tm t k) + bf (ix1 k)
      = pre x wp bp wf bf node tm b n t k :=
  add_right_comm _ _ _

/-- The whole result array, index by index. -/
def G (γ β : (⟨1, ![128]⟩ : Shape).Idx → EReal) : (⟨4, ![16, 256, 96, 128]⟩ : Shape).Idx → EReal := fun i =>
  rowNorm (fun k => pre x wp bp wf bf node tm (i 0) (i 1) (i 2) k) (fun k => γ (ix1 k)) (fun k => β (ix1 k)) (i 3)

end

end Cert.LayerSpec

end
-- ==== Proof.RefSpec.lean ====
/-
  The reference computes the specified function.

  Its program is a chain of whole-array operations: three matrix products (the input projection with its bias, then
  the projection, the node embedding and the time embedding each through its 128 rows of the weight matrix), the
  products broadcast to the four result axes and added — the bias last —, the positive part, and the layer
  normalisation along the last axis by two sums, two quotients by 128, one reciprocal square root and the scale and
  shift. Read at a result index (b, n, t, k), one operation at a time, every broadcast only drops or repeats
  coordinates, so each stage is the corresponding piece of the specification at those coordinates: the sums over
  the contracted axis are the specification's sums term by term, the two sums along the last axis start from the
  word 0, which is the number 0, and the one place where the order of the additions differs from the specification's
  is the bias, moved by commutativity and associativity of addition.
-/
import proofs.«131873_j19224273616920_1_alg».proof.Proof.Gen.ReferenceIdeal.Read
import proofs.«131873_j19224273616920_1_alg».proof.Proof.LayerSpec

noncomputable section

namespace Cert.ReferenceIdeal.RefSpec

open Cert.ReferenceIdeal Cert.ReferenceIdeal.Read Idealize.ShloMosaic Idealize.ShloMosaic.ValueIdx Cert.LayerSpec

/-- Two index tuples are equal when they are equal axis by axis; each axis by computation, or by arithmetic on the
    row offset into the weight matrix. -/
local macro "axis" : tactic => `(tactic| first | rfl | (apply Fin.ext; simp only [wrow]; omega) | (apply Fin.ext; show _ = _; omega))
local macro "idx1" : tactic => `(tactic| (refine funext fun a => ?_; match a with | ⟨0, _⟩ => axis))
local macro "idx2" : tactic => `(tactic| (refine funext fun a => ?_; match a with | ⟨0, _⟩ => axis | ⟨1, _⟩ => axis))
local macro "idx3" : tactic => `(tactic| (refine funext fun a => ?_; match a with | ⟨0, _⟩ => axis | ⟨1, _⟩ => axis | ⟨2, _⟩ => axis))
local macro "idx4" : tactic => `(tactic| (refine funext fun a => ?_; match a with | ⟨0, _⟩ => axis | ⟨1, _⟩ => axis | ⟨2, _⟩ => axis | ⟨3, _⟩ => axis))

variable (x0 : FVec Ideal S16x256x96 .f32) (x1 : FVec Ideal S96x128 .f32) (x2 : FVec Ideal S128 .f32)
  (x3 : FVec Ideal S384x128 .f32) (x4 x5 x6 : FVec Ideal S128 .f32) (x7 : FVec Ideal S256x128 .f32)
  (x8 : FVec Ideal S96x128 .f32)

/-- The word 0 is the number 0, so a sum started from it is the sum. -/
theorem zero_word_add (a : EReal) : (FloatOps.ofBits (F := Ideal) .f32 0x00000000#32 : EReal) + a = a := by
  show Ideal.ofBits .f32 0x00000000#32 + a = a
  rw [Ideal.ofBits_zero_f32, zero_add]

/-! ## The matrix products -/

/-- The first product with its bias is the input projection. -/
theorem proj_at (b : Fin 16) (n : Fin 256) (h : Fin 128) :
    val_main_v3 (F := Ideal) x0 x1 x2 (ix3 b n h) = proj x0 x1 x2 b n h := by
  rw [val_main_v3_apply, val_main_v0_apply, val_main_v2_apply, val_main_v1_apply]
  have e0 : ∀ s : Fin 96, lidx_main_v0 (ix3 b n h) s = ix3 b n s := fun s => by idx3
  have e1 : ∀ s : Fin 96, ridx_main_v0 (ix3 b n h) s = ix2 s h := fun s => by idx2
  have e2 : idx_main_v1 (idx_main_v2 (ix3 b n h)) = ix1 h := by idx1
  rw [e2]
  show (∑ s : Fin 96, x0 (lidx_main_v0 (ix3 b n h) s) * x1 (ridx_main_v0 (ix3 b n h) s)) + x2 (ix1 h) = _
  unfold proj
  refine congrArg (· + x2 (ix1 h)) (Finset.sum_congr rfl fun s _ => ?_)
  rw [e0 s, e1 s]

/-- The projection through the first 128 rows of the weight matrix. -/
theorem fromProj_at (b : Fin 16) (n : Fin 256) (k : Fin 128) :
    val_main_v7 (F := Ideal) x0 x1 x2 x3 (ix3 b n k) = fromProj x0 x1 x2 x3 b n k := by
  rw [val_main_v7_apply]
  unfold fromProj
  refine Finset.sum_congr rfl fun h _ => ?_
  have e0 : lidx_main_v7 (ix3 b n k) h = ix3 b n h := by idx3
  have e1 : idx_main_v4 (ridx_main_v7 (ix3 b n k) h) = ix2 (wrow 0 (by omega) h) k := by idx2
  rw [e0, proj_at, val_main_v4_apply, e1]

/-- The node embedding through rows 128 to 255. -/
theorem fromNode_at (n : Fin 256) (k : Fin 128) :
    val_main_v9 (F := Ideal) x3 x7 (ix2 n k) = fromNode x3 x7 n k := by
  rw [val_main_v9_apply]
  unfold fromNode
  refine Finset.sum_congr rfl fun h _ => ?_
  have e0 : lidx_main_v9 (ix2 n k) h = ix2 n h := by idx2
  have e1 : idx_main_v5 (ridx_main_v9 (ix2 n k) h) = ix2 (wrow 128 (by omega) h) k := by idx2
  rw [e0, val_main_v5_apply, e1]

/-- The time embedding through rows 256 to 383. -/
theorem fromTime_at (t : Fin 96) (k : Fin 128) :
    val_main_v13 (F := Ideal) x3 x8 (ix2 t k) = fromTime x3 x8 t k := by
  rw [val_main_v13_apply]
  unfold fromTime
  refine Finset.sum_congr rfl fun h _ => ?_
  have e0 : lidx_main_v13 (ix2 t k) h = ix2 t h := by idx2
  have e1 : idx_main_v6 (ridx_main_v13 (ix2 t k) h) = ix2 (wrow 256 (by omega) h) k := by idx2
  rw [e0, val_main_v6_apply, e1]

/-! ## The pre-activation and its positive part -/

/-- The three products broadcast to (b, n, t, k) and added, the bias last, are the pre-activation. -/
theorem pre_at (b : Fin 16) (n : Fin 256) (t : Fin 96) (k : Fin 128) :
    val_main_v20 (F := Ideal) x0 x1 x2 x3 x4 x7 x8 (ix4 b n t k) = pre x0 x1 x2 x3 x4 x7 x8 b n t k := by
  rw [val_main_v20_apply, val_main_v17_apply, val_main_v15_apply, val_main_v12_apply, val_main_v8_apply,
    val_main_v11_apply, val_main_v10_apply, val_main_v16_apply, val_main_v14_apply, val_main_v19_apply,
    val_main_v18_apply]
  have e0 : idx_main_v8 (idx_main_v15 (ix4 b n t k)) = ix3 b n k := by idx3
  have e1 : idx_main_v10 (idx_main_v11 (idx_main_v15 (ix4 b n t k))) = ix2 n k := by idx2
  have e2 : idx_main_v14 (idx_main_v16 (ix4 b n t k)) = ix2 t k := by idx2
  have e3 : idx_main_v18 (idx_main_v19 (ix4 b n t k)) = ix1 k := by idx1
  rw [e0, e1, e2, e3, fromProj_at, fromNode_at, fromTime_at]
  exact pre_eq_bias_last x0 x1 x2 x3 x4 x7 x8 b n t k

/-- Its maximum with the word 0 is the row's positive part. -/
theorem act_at (b : Fin 16) (n : Fin 256) (t : Fin 96) (k : Fin 128) :
    val_main_v21 (F := Ideal) x0 x1 x2 x3 x4 x7 x8 (ix4 b n t k)
      = act (fun k' => pre x0 x1 x2 x3 x4 x7 x8 b n t k') k := by
  rw [val_main_v21_apply, val_main_call0_v0_apply, val_main_call0_cst_apply, pre_at]
  rfl

/-! ## The normalisation along the last axis -/

/-- The first sum along the last axis, started from the word 0. -/
theorem sum_act_at (b : Fin 16) (n : Fin 256) (t : Fin 96) :
    val_main_v22 (F := Ideal) x0 x1 x2 x3 x4 x7 x8 (ix3 b n t)
      = ∑ k : Fin 128, act (fun k' => pre x0 x1 x2 x3 x4 x7 x8 b n t k') k := by
  rw [val_main_v22_apply, val_main_cst_apply, zero_word_add]
  refine Finset.sum_congr rfl fun k _ => ?_
  have e : idx_main_v22 (ix3 b n t) k = ix4 b n t k := by idx4
  rw [e, act_at]

/-- Its quotient by 128 is the mean. -/
theorem mean_at (b : Fin 16) (n : Fin 256) (t : Fin 96) (z : Fin 1) :
    val_main_v25 (F := Ideal) x0 x1 x2 x3 x4 x7 x8 (ix4 b n t z)
      = mean (fun k' => pre x0 x1 x2 x3 x4 x7 x8 b n t k') := by
  rw [val_main_v25_apply, val_main_v23_apply, val_main_v24_apply, val_main_cst_0_apply]
  have e : idx_main_v23 (ix4 b n t z) = ix3 b n t := by idx3
  rw [e, sum_act_at]
  rfl

/-- The deviation from the mean, as the reference takes it for the variance. -/
theorem dev_at (b : Fin 16) (n : Fin 256) (t : Fin 96) (k : Fin 128) :
    val_main_v27 (F := Ideal) x0 x1 x2 x3 x4 x7 x8 (ix4 b n t k)
      = dev (fun k' => pre x0 x1 x2 x3 x4 x7 x8 b n t k') k := by
  rw [val_main_v27_apply, val_main_v26_apply, act_at]
  have e : idx_main_v26 (ix4 b n t k) = ix4 b n t (⟨0, Nat.one_pos⟩ : Fin 1) := by idx4
  rw [e, mean_at]
  rfl

/-- The same deviation, as the reference takes it again for the result. -/
theorem dev_at' (b : Fin 16) (n : Fin 256) (t : Fin 96) (k : Fin 128) :
    val_main_v34 (F := Ideal) x0 x1 x2 x3 x4 x7 x8 (ix4 b n t k)
      = dev (fun k' => pre x0 x1 x2 x3 x4 x7 x8 b n t k') k := by
  rw [val_main_v34_apply, val_main_v33_apply, act_at]
  have e : idx_main_v33 (ix4 b n t k) = ix4 b n t (⟨0, Nat.one_pos⟩ : Fin 1) := by idx4
  rw [e, mean_at]
  rfl

/-- The sum of the squared deviations, started from the word 0, over 128, is the variance. -/
theorem var_at (b : Fin 16) (n : Fin 256) (t : Fin 96) (z : Fin 1) :
    val_main_v32 (F := Ideal) x0 x1 x2 x3 x4 x7 x8 (ix4 b n t z)
      = var (fun k' => pre x0 x1 x2 x3 x4 x7 x8 b n t k') := by
  rw [val_main_v32_apply, val_main_v30_apply, val_main_v31_apply, val_main_cst_2_apply]
  have e : idx_main_v30 (ix4 b n t z) = ix3 b n t := by idx3
  rw [e, val_main_v29_apply, val_main_cst_1_apply, zero_word_add]
  unfold var
  refine congrArg (fun s => Ideal.div s width) (Finset.sum_congr rfl fun k _ => ?_)
  have e' : idx_main_v29 (ix3 b n t) k = ix4 b n t k := by idx4
  rw [e', val_main_v28_apply, dev_at]
  rfl

/-! ## The result -/

/-- The reference's result at (b, n, t, k) is the normalised row at `k`. -/
theorem out_at (b : Fin 16) (n : Fin 256) (t : Fin 96) (k : Fin 128) :
    val_main_v45 (F := Ideal) x0 x1 x2 x3 x4 x5 x6 x7 x8 (ix4 b n t k)
      = rowNorm (fun k' => pre x0 x1 x2 x3 x4 x7 x8 b n t k') (fun k' => x5 (ix1 k')) (fun k' => x6 (ix1 k')) k := by
  rw [val_main_v45_apply, val_main_v42_apply, val_main_v39_apply, dev_at', val_main_v38_apply, val_main_v37_apply,
    val_main_v36_apply, val_main_v35_apply, val_main_cst_3_apply, val_main_v41_apply, val_main_v40_apply,
    val_main_v44_apply, val_main_v43_apply]
  have e0 : idx_main_v38 (ix4 b n t k) = ix4 b n t (⟨0, Nat.one_pos⟩ : Fin 1) := by idx4
  have e1 : idx_main_v40 (idx_main_v41 (ix4 b n t k)) = ix1 k := by idx1
  have e2 : idx_main_v43 (idx_main_v44 (ix4 b n t k)) = ix1 k := by idx1
  rw [e0, e1, e2, var_at]
  rfl

/-- The reference's whole result is the specified array. -/
theorem ref_eq :
    val_main_v45 (F := Ideal) x0 x1 x2 x3 x4 x5 x6 x7 x8 = G x0 x1 x2 x3 x4 x7 x8 x5 x6 := by
  funext i
  obtain ⟨b, n, t, k, rfl⟩ : ∃ (b : Fin 16) (n : Fin 256) (t : Fin 96) (k : Fin 128), i = ix4 b n t k :=
    ⟨i 0, i 1, i 2, i 3, eq_ix4 i⟩
  exact out_at x0 x1 x2 x3 x4 x5 x6 x7 x8 b n t k

end Cert.ReferenceIdeal.RefSpec

end
-- ==== Proof.BlockSpec.lean ====
/-
  One grid point's block of the kernel's result, as the specified function of the blocks it loads.

  The body loads a [1,128,96] block of x (128 nodes of one batch entry), the matching [128,128] block of the node
  embedding, and the whole of the other operands; it forms the projection and its three shares by four matrix
  products into zero accumulators — each a plain sum over the contracted index —, adds the shares and the bias
  row by broadcasting ([128,128] along a middle axis, [96,128] along a leading axis, a [1,128] row down the rows),
  takes the positive part, and normalises along the last axis by two lane sums, two quotients by 128, a reciprocal
  square root and the scale and shift rows. Reading every re-laying operation at an index (each only drops, inserts
  or repeats a coordinate) turns the stored value at (n, t, k) into the layer normalisation at `k` of the row of
  pre-activations `k' ↦ preBlk n t k'` built from the loaded blocks.
-/
import proofs.«131873_j19224273616920_1_alg».proof.Proof.Gen.KernelIdeal.Value
import proofs.«131873_j19224273616920_1_alg».proof.Proof.LayerSpec
import Idealize.ShloMosaic.Lib.ValueIdx
import Idealize.ShloMosaic.Lib.Pipeline.Value
import Idealize.ShloMosaic.PureOps.Ideal.Laws

noncomputable section

namespace Cert.KernelIdeal.BlockSpec

open Cert.KernelIdeal Cert.KernelIdeal.Gen Cert.KernelIdeal.Value Idealize.ShloMosaic Idealize.ShloMosaic.ValueIdx
  Cert.LayerSpec

/-! ## Re-laying operations read at an index -/

section Layout
variable {α : Type}

/-- A [128,128] matrix seen as [128,1,128] and repeated along the middle axis: entry (n, t, k) is entry (n, k). -/
theorem rows_at (v : S128x128.Idx → α) (h1 : S128x128.ShapeCasts S128x1x128) (h2 : S128x1x128.Broadcasts S128x96x128)
    (n : Fin 128) (t : Fin 96) (k : Fin 128) :
    broadcastTo S128x96x128 (shapeCast S128x1x128 v h1) h2 (ix3 n t k) = v (ix2 n k) := by
  refine (broadcastTo_apply _ h2 (ix3 n t k) (ix3 n (0 : Fin 1) k) (fun a => ?_)).trans ?_
  · match a with
    | ⟨0, _⟩ => show n.val = if (128 : Nat) = 1 then 0 else n.val; rw [if_neg (by decide)]
    | ⟨1, _⟩ => show 0 = if (1 : Nat) = 1 then 0 else t.val; rw [if_pos rfl]
    | ⟨2, _⟩ => show k.val = if (128 : Nat) = 1 then 0 else k.val; rw [if_neg (by decide)]
  · exact shapeCast_apply v h1 (ix3 n (0 : Fin 1) k) (ix2 n k) (by
      rw [Shape.rowMajor_val_two, Shape.rowMajor_val_three]
      show n.val * 128 + k.val = (n.val * 1 + 0) * 128 + k.val; omega)

/-- A [96,128] matrix seen as [1,96,128] and repeated along the leading axis: entry (n, t, k) is entry (t, k). -/
theorem times_at (w : S96x128.Idx → α) (h1 : S96x128.ShapeCasts S1x96x128) (h2 : S1x96x128.Broadcasts S128x96x128)
    (n : Fin 128) (t : Fin 96) (k : Fin 128) :
    broadcastTo S128x96x128 (shapeCast S1x96x128 w h1) h2 (ix3 n t k) = w (ix2 t k) := by
  refine (broadcastTo_apply _ h2 (ix3 n t k) (ix3 (0 : Fin 1) t k) (fun a => ?_)).trans ?_
  · match a with
    | ⟨0, _⟩ => show 0 = if (1 : Nat) = 1 then 0 else n.val; rw [if_pos rfl]
    | ⟨1, _⟩ => show t.val = if (96 : Nat) = 1 then 0 else t.val; rw [if_neg (by decide)]
    | ⟨2, _⟩ => show k.val = if (128 : Nat) = 1 then 0 else k.val; rw [if_neg (by decide)]
  · exact shapeCast_apply w h1 (ix3 (0 : Fin 1) t k) (ix2 t k) (by
      rw [Shape.rowMajor_val_two, Shape.rowMajor_val_three]
      show t.val * 128 + k.val = (0 * 96 + t.val) * 128 + k.val; omega)

/-- A [1,128] row repeated down 128 rows: entry (r, c) is the row's entry c. -/
theorem row_at (p : S1x128.Idx → α) (h1 : S1x128.ShapeCasts S1x128) (h2 : S1x128.Broadcasts S128x128)
    (r c : Fin 128) :
    broadcastTo S128x128 (shapeCast S1x128 p h1) h2 (ix2 r c) = p (ix2 (0 : Fin 1) c) := by
  refine (broadcastTo_apply _ h2 (ix2 r c) (ix2 (0 : Fin 1) c) (fun a => ?_)).trans ?_
  · match a with
    | ⟨0, _⟩ => show 0 = if (1 : Nat) = 1 then 0 else r.val; rw [if_pos rfl]
    | ⟨1, _⟩ => show c.val = if (128 : Nat) = 1 then 0 else c.val; rw [if_neg (by decide)]
  · exact shapeCast_apply p h1 (ix2 (0 : Fin 1) c) (ix2 (0 : Fin 1) c) rfl

/-- The [1,128,96] block seen as [128,96]: entry (r, s) is entry (0, r, s). -/
theorem squeeze_at (p : S1x128x96.Idx → α) (h : S1x128x96.ShapeCasts S128x96) (r : Fin 128) (s : Fin 96) :
    shapeCast S128x96 p h (ix2 r s) = p (ix3 (0 : Fin 1) r s) :=
  shapeCast_apply p h (ix2 r s) (ix3 (0 : Fin 1) r s) (by
    rw [Shape.rowMajor_val_three, Shape.rowMajor_val_two]
    show (0 * 128 + r.val) * 96 + s.val = r.val * 96 + s.val; omega)

/-- The 128 rows of the weight matrix from row `o` on: entry (r, c) is entry (o + r, c). -/
theorem wslice_at (p : S384x128.Idx → α) (o : Nat) (ho : o + 128 ≤ 384) (h : S384x128.Slices ![o, 0] S128x128)
    (r c : Fin 128) :
    extractStridedSlice S128x128 ![o, 0] p h (ix2 r c) = p (ix2 (wrow o ho r) c) :=
  extractStridedSlice_apply ![o, 0] p h (ix2 r c) (ix2 (wrow o ho r) c) (fun a => by
    match a with
    | ⟨0, _⟩ => show o + r.val = o + r.val; rfl
    | ⟨1, _⟩ => show c.val = 0 + c.val; omega)

/-- The three 128-row parts of the weight matrix the body takes: rows 0–127, 128–255 and 256–383. -/
theorem wslice0_at (p : S384x128.Idx → α) (h : S384x128.Slices ![0, 0] S128x128) (r c : Fin 128) :
    extractStridedSlice S128x128 ![0, 0] p h (ix2 r c) = p (ix2 (wrow 0 (by omega) r) c) :=
  wslice_at p 0 (by omega) h r c
theorem wslice128_at (p : S384x128.Idx → α) (h : S384x128.Slices ![128, 0] S128x128) (r c : Fin 128) :
    extractStridedSlice S128x128 ![128, 0] p h (ix2 r c) = p (ix2 (wrow 128 (by omega) r) c) :=
  wslice_at p 128 (by omega) h r c
theorem wslice256_at (p : S384x128.Idx → α) (h : S384x128.Slices ![256, 0] S128x128) (r c : Fin 128) :
    extractStridedSlice S128x128 ![256, 0] p h (ix2 r c) = p (ix2 (wrow 256 (by omega) r) c) :=
  wslice_at p 256 (by omega) h r c

/-- A [128,96,1] column repeated along the last axis: entry (n, t, k) is entry (n, t, 0). -/
theorem last_at (u : S128x96x1.Idx → α) (h2 : S128x96x1.Broadcasts S128x96x128) (n : Fin 128) (t : Fin 96) (k : Fin 128) :
    broadcastTo S128x96x128 u h2 (ix3 n t k) = u (ix3 n t (0 : Fin 1)) :=
  broadcastTo_apply u h2 (ix3 n t k) (ix3 n t (0 : Fin 1)) (fun a => by
    match a with
    | ⟨0, _⟩ => show n.val = if (128 : Nat) = 1 then 0 else n.val; rw [if_neg (by decide)]
    | ⟨1, _⟩ => show t.val = if (96 : Nat) = 1 then 0 else t.val; rw [if_neg (by decide)]
    | ⟨2, _⟩ => show 0 = if (1 : Nat) = 1 then 0 else k.val; rw [if_pos rfl])

/-- A [128,96] matrix seen as [128,96,1]: entry (n, t, 0) is entry (n, t). -/
theorem unsqueeze_at (u : S128x96.Idx → α) (h1 : S128x96.ShapeCasts S128x96x1) (n : Fin 128) (t : Fin 96) :
    shapeCast S128x96x1 u h1 (ix3 n t (0 : Fin 1)) = u (ix2 n t) :=
  shapeCast_apply u h1 (ix3 n t (0 : Fin 1)) (ix2 n t) (by
    rw [Shape.rowMajor_val_two, Shape.rowMajor_val_three]
    show n.val * 96 + t.val = (n.val * 96 + t.val) * 1 + 0; omega)

end Layout

/-! ## The matrix products into a zero accumulator, read at an index

Each is the sum over the one contracted index of the products of the operands' entries; the three records differ only
in their extents. -/

theorem lhs_mmA_0 (i : S128x128.Idx) (q : dot_S128x96_S96x128_S128x128_1_0_0_1_n_n.contr.Idx) :
    (dot_S128x96_S96x128_S128x128_1_0_0_1_n_n.lhsIdx i q 0).val = (i 0).val := by
  unfold DotDims.lhsIdx
  rw [dif_neg (show ¬(0 : Fin S128x96.rank) ∈ dot_S128x96_S96x128_S128x128_1_0_0_1_n_n.lhsBatch by decide), dif_pos (show (0 : Fin S128x96.rank) ∈ dot_S128x96_S96x128_S128x128_1_0_0_1_n_n.lhsNonContracting by decide)]
  rfl
theorem lhs_mmA_1 (i : S128x128.Idx) (q : dot_S128x96_S96x128_S128x128_1_0_0_1_n_n.contr.Idx) :
    (dot_S128x96_S96x128_S128x128_1_0_0_1_n_n.lhsIdx i q 1).val = (q ⟨0, by decide⟩).val :=
  dot_S128x96_S96x128_S128x128_1_0_0_1_n_n.lhsIdx_val_of_single rfl i q
theorem rhs_mmA_0 (i : S128x128.Idx) (q : dot_S128x96_S96x128_S128x128_1_0_0_1_n_n.contr.Idx) :
    (dot_S128x96_S96x128_S128x128_1_0_0_1_n_n.rhsIdx i q 0).val = (q ⟨0, by decide⟩).val :=
  dot_S128x96_S96x128_S128x128_1_0_0_1_n_n.rhsIdx_val_of_single rfl i q
theorem rhs_mmA_1 (i : S128x128.Idx) (q : dot_S128x96_S96x128_S128x128_1_0_0_1_n_n.contr.Idx) :
    (dot_S128x96_S96x128_S128x128_1_0_0_1_n_n.rhsIdx i q 1).val = (i 1).val := by
  unfold DotDims.rhsIdx
  rw [dif_neg (show ¬(1 : Fin S96x128.rank) ∈ dot_S128x96_S96x128_S128x128_1_0_0_1_n_n.rhsBatch by decide), dif_pos (show (1 : Fin S96x128.rank) ∈ dot_S128x96_S96x128_S128x128_1_0_0_1_n_n.rhsNonContracting by decide)]
  rfl

/-- [128,96] times [96,128]. -/
theorem mmA_at (A : FVec Ideal S128x96 .f32) (B : FVec Ideal S96x128 .f32) (r : Fin 128) (c : Fin 128) :
    matmul dot_S128x96_S96x128_S128x128_1_0_0_1_n_n none A B (constant (F := Ideal) S128x128 .f32 0x00000000#32) (ix2 r c)
      = ∑ s : Fin 96, A (ix2 r s) * B (ix2 s c) := by
  simp only [matmul]
  rw [Ideal.matmul_constant_zero_apply, ← Equiv.sum_comp (contrEquiv1 dot_S128x96_S96x128_S128x128_1_0_0_1_n_n 96 rfl rfl).symm]
  refine Finset.sum_congr rfl fun s _ => ?_
  have hk := contrEquiv1_symm_val dot_S128x96_S96x128_S128x128_1_0_0_1_n_n 96 rfl rfl s
  have el : dot_S128x96_S96x128_S128x128_1_0_0_1_n_n.lhsIdx (ix2 r c) ((contrEquiv1 dot_S128x96_S96x128_S128x128_1_0_0_1_n_n 96 rfl rfl).symm s) = ix2 r s := funext fun a => Fin.ext (by
    match a with
    | ⟨0, _⟩ => exact lhs_mmA_0 _ _
    | ⟨1, _⟩ => exact (lhs_mmA_1 _ _).trans hk)
  have er : dot_S128x96_S96x128_S128x128_1_0_0_1_n_n.rhsIdx (ix2 r c) ((contrEquiv1 dot_S128x96_S96x128_S128x128_1_0_0_1_n_n 96 rfl rfl).symm s) = ix2 s c := funext fun a => Fin.ext (by
    match a with
    | ⟨0, _⟩ => exact (rhs_mmA_0 _ _).trans hk
    | ⟨1, _⟩ => exact rhs_mmA_1 _ _)
  rw [el, er]

theorem lhs_mmB_0 (i : S128x128.Idx) (q : dot_S128x128_S128x128_S128x128_1_0_0_1_n_n.contr.Idx) :
    (dot_S128x128_S128x128_S128x128_1_0_0_1_n_n.lhsIdx i q 0).val = (i 0).val := by
  unfold DotDims.lhsIdx
  rw [dif_neg (show ¬(0 : Fin S128x128.rank) ∈ dot_S128x128_S128x128_S128x128_1_0_0_1_n_n.lhsBatch by decide), dif_pos (show (0 : Fin S128x128.rank) ∈ dot_S128x128_S128x128_S128x128_1_0_0_1_n_n.lhsNonContracting by decide)]
  rfl
theorem lhs_mmB_1 (i : S128x128.Idx) (q : dot_S128x128_S128x128_S128x128_1_0_0_1_n_n.contr.Idx) :
    (dot_S128x128_S128x128_S128x128_1_0_0_1_n_n.lhsIdx i q 1).val = (q ⟨0, by decide⟩).val :=
  dot_S128x128_S128x128_S128x128_1_0_0_1_n_n.lhsIdx_val_of_single rfl i q
theorem rhs_mmB_0 (i : S128x128.Idx) (q : dot_S128x128_S128x128_S128x128_1_0_0_1_n_n.contr.Idx) :
    (dot_S128x128_S128x128_S128x128_1_0_0_1_n_n.rhsIdx i q 0).val = (q ⟨0, by decide⟩).val :=
  dot_S128x128_S128x128_S128x128_1_0_0_1_n_n.rhsIdx_val_of_single rfl i q
theorem rhs_mmB_1 (i : S128x128.Idx) (q : dot_S128x128_S128x128_S128x128_1_0_0_1_n_n.contr.Idx) :
    (dot_S128x128_S128x128_S128x128_1_0_0_1_n_n.rhsIdx i q 1).val = (i 1).val := by
  unfold DotDims.rhsIdx
  rw [dif_neg (show ¬(1 : Fin S128x128.rank) ∈ dot_S128x128_S128x128_S128x128_1_0_0_1_n_n.rhsBatch by decide), dif_pos (show (1 : Fin S128x128.rank) ∈ dot_S128x128_S128x128_S128x128_1_0_0_1_n_n.rhsNonContracting by decide)]
  rfl

/-- [128,128] times [128,128]. -/
theorem mmB_at (A : FVec Ideal S128x128 .f32) (B : FVec Ideal S128x128 .f32) (r : Fin 128) (c : Fin 128) :
    matmul dot_S128x128_S128x128_S128x128_1_0_0_1_n_n none A B (constant (F := Ideal) S128x128 .f32 0x00000000#32) (ix2 r c)
      = ∑ s : Fin 128, A (ix2 r s) * B (ix2 s c) := by
  simp only [matmul]
  rw [Ideal.matmul_constant_zero_apply, ← Equiv.sum_comp (contrEquiv1 dot_S128x128_S128x128_S128x128_1_0_0_1_n_n 128 rfl rfl).symm]
  refine Finset.sum_congr rfl fun s _ => ?_
  have hk := contrEquiv1_symm_val dot_S128x128_S128x128_S128x128_1_0_0_1_n_n 128 rfl rfl s
  have el : dot_S128x128_S128x128_S128x128_1_0_0_1_n_n.lhsIdx (ix2 r c) ((contrEquiv1 dot_S128x128_S128x128_S128x128_1_0_0_1_n_n 128 rfl rfl).symm s) = ix2 r s := funext fun a => Fin.ext (by
    match a with
    | ⟨0, _⟩ => exact lhs_mmB_0 _ _
    | ⟨1, _⟩ => exact (lhs_mmB_1 _ _).trans hk)
  have er : dot_S128x128_S128x128_S128x128_1_0_0_1_n_n.rhsIdx (ix2 r c) ((contrEquiv1 dot_S128x128_S128x128_S128x128_1_0_0_1_n_n 128 rfl rfl).symm s) = ix2 s c := funext fun a => Fin.ext (by
    match a with
    | ⟨0, _⟩ => exact (rhs_mmB_0 _ _).trans hk
    | ⟨1, _⟩ => exact rhs_mmB_1 _ _)
  rw [el, er]

theorem lhs_mmC_0 (i : S96x128.Idx) (q : dot_S96x128_S128x128_S96x128_1_0_0_1_n_n.contr.Idx) :
    (dot_S96x128_S128x128_S96x128_1_0_0_1_n_n.lhsIdx i q 0).val = (i 0).val := by
  unfold DotDims.lhsIdx
  rw [dif_neg (show ¬(0 : Fin S96x128.rank) ∈ dot_S96x128_S128x128_S96x128_1_0_0_1_n_n.lhsBatch by decide), dif_pos (show (0 : Fin S96x128.rank) ∈ dot_S96x128_S128x128_S96x128_1_0_0_1_n_n.lhsNonContracting by decide)]
  rfl
theorem lhs_mmC_1 (i : S96x128.Idx) (q : dot_S96x128_S128x128_S96x128_1_0_0_1_n_n.contr.Idx) :
    (dot_S96x128_S128x128_S96x128_1_0_0_1_n_n.lhsIdx i q 1).val = (q ⟨0, by decide⟩).val :=
  dot_S96x128_S128x128_S96x128_1_0_0_1_n_n.lhsIdx_val_of_single rfl i q
theorem rhs_mmC_0 (i : S96x128.Idx) (q : dot_S96x128_S128x128_S96x128_1_0_0_1_n_n.contr.Idx) :
    (dot_S96x128_S128x128_S96x128_1_0_0_1_n_n.rhsIdx i q 0).val = (q ⟨0, by decide⟩).val :=
  dot_S96x128_S128x128_S96x128_1_0_0_1_n_n.rhsIdx_val_of_single rfl i q
theorem rhs_mmC_1 (i : S96x128.Idx) (q : dot_S96x128_S128x128_S96x128_1_0_0_1_n_n.contr.Idx) :
    (dot_S96x128_S128x128_S96x128_1_0_0_1_n_n.rhsIdx i q 1).val = (i 1).val := by
  unfold DotDims.rhsIdx
  rw [dif_neg (show ¬(1 : Fin S128x128.rank) ∈ dot_S96x128_S128x128_S96x128_1_0_0_1_n_n.rhsBatch by decide), dif_pos (show (1 : Fin S128x128.rank) ∈ dot_S96x128_S128x128_S96x128_1_0_0_1_n_n.rhsNonContracting by decide)]
  rfl

/-- [96,128] times [128,128]. -/
theorem mmC_at (A : FVec Ideal S96x128 .f32) (B : FVec Ideal S128x128 .f32) (r : Fin 96) (c : Fin 128) :
    matmul dot_S96x128_S128x128_S96x128_1_0_0_1_n_n none A B (constant (F := Ideal) S96x128 .f32 0x00000000#32) (ix2 r c)
      = ∑ s : Fin 128, A (ix2 r s) * B (ix2 s c) := by
  simp only [matmul]
  rw [Ideal.matmul_constant_zero_apply, ← Equiv.sum_comp (contrEquiv1 dot_S96x128_S128x128_S96x128_1_0_0_1_n_n 128 rfl rfl).symm]
  refine Finset.sum_congr rfl fun s _ => ?_
  have hk := contrEquiv1_symm_val dot_S96x128_S128x128_S96x128_1_0_0_1_n_n 128 rfl rfl s
  have el : dot_S96x128_S128x128_S96x128_1_0_0_1_n_n.lhsIdx (ix2 r c) ((contrEquiv1 dot_S96x128_S128x128_S96x128_1_0_0_1_n_n 128 rfl rfl).symm s) = ix2 r s := funext fun a => Fin.ext (by
    match a with
    | ⟨0, _⟩ => exact lhs_mmC_0 _ _
    | ⟨1, _⟩ => exact (lhs_mmC_1 _ _).trans hk)
  have er : dot_S96x128_S128x128_S96x128_1_0_0_1_n_n.rhsIdx (ix2 r c) ((contrEquiv1 dot_S96x128_S128x128_S96x128_1_0_0_1_n_n 128 rfl rfl).symm s) = ix2 s c := funext fun a => Fin.ext (by
    match a with
    | ⟨0, _⟩ => exact (rhs_mmC_0 _ _).trans hk
    | ⟨1, _⟩ => exact rhs_mmC_1 _ _)
  rw [el, er]

/-! ## A lane sum read at an index -/

/-- The sum along the last axis of a [128,96,128] value, from the zero word: at (n, t) the sum over k of the entries
    (n, t, k). -/
theorem lane_sum_at (src : FVec Ideal S128x96x128 .f32) (h : S128x96x128.Reduces [2] S128x96) (hφ : FKind.Formats .f32)
    (hacc : (0x00000000#32 : BitVec FTy.f32.bits) = FKind.add.neutral .f32 hφ) (n : Fin 128) (t : Fin 96) :
    multiReduction .add [2] S128x96 src 0x00000000#32 h hφ hacc (ix2 n t) = ∑ k : Fin 128, src (ix3 n t k) := by
  refine (Ideal.multiReduction_add_single src _ h hφ hacc (ix2 n t)).trans ?_
  refine Finset.sum_congr rfl fun k _ => congrArg src ?_
  refine funext fun a => Fin.ext ?_
  match a with
  | ⟨0, _⟩ => rfl
  | ⟨1, _⟩ => rfl
  | ⟨2, _⟩ => rfl

/-! ## The block's entries -/

section Block
variable (P0 : Vec Ideal S1x128x96 .f32) (P1 : Vec Ideal S96x128 .f32) (P2 : Vec Ideal S1x128 .f32)
  (P3 : Vec Ideal S384x128 .f32) (P4 : Vec Ideal S128x128 .f32) (P5 : Vec Ideal S96x128 .f32)
  (P6 P7 P8 : Vec Ideal S1x128 .f32)

/-- The pre-activation of node `n` of the block at time `t` and feature `k`, from the loaded blocks: the x block `P0`,
    the projection weights `P1` and bias row `P2`, the 384-row weight matrix `P3`, the node block `P4`, the time
    embedding `P5` and the bias row `P6`. -/
def preBlk (n : Fin 128) (t : Fin 96) (k : Fin 128) : EReal :=
  (((∑ h : Fin 128, ((∑ s : Fin 96, P0 (ix3 (0 : Fin 1) n s) * P1 (ix2 s h)) + P2 (ix2 (0 : Fin 1) h))
        * P3 (ix2 (wrow 0 (by omega) h) k))
      + (∑ h : Fin 128, P4 (ix2 n h) * P3 (ix2 (wrow 128 (by omega) h) k)))
    + P6 (ix2 (0 : Fin 1) k))
  + (∑ h : Fin 128, P5 (ix2 t h) * P3 (ix2 (wrow 256 (by omega) h) k))

/-- The value the body keeps after the maximum with zero: the positive part of the pre-activation. -/
theorem act_at (n : Fin 128) (t : Fin 96) (k : Fin 128) :
    k0_pay2 (F := Ideal) P0 P1 P2 P3 P4 P5 P6 (ix3 n t k) = act (preBlk P0 P1 P2 P3 P4 P5 P6 n t) k := by
  unfold k0_pay2
  simp only [maximumf_apply, addf_apply, broadcast_apply, rows_at, times_at, row_at, mmA_at, mmB_at, mmC_at,
    squeeze_at, wslice0_at, wslice128_at, wslice256_at]
  rfl

/-- The first lane sum: the sum of the row's positive parts. -/
theorem sum_act_at (n : Fin 128) (t : Fin 96) :
    multiReduction .add [2] S128x96 (k0_pay2 (F := Ideal) P0 P1 P2 P3 P4 P5 P6) 0x00000000#32
        reduces_S128x96x128_S128x96 (.inl rfl) rfl (ix2 n t)
      = ∑ k : Fin 128, act (preBlk P0 P1 P2 P3 P4 P5 P6 n t) k := by
  refine (lane_sum_at _ _ _ _ n t).trans ?_
  exact Finset.sum_congr rfl fun k _ => act_at P0 P1 P2 P3 P4 P5 P6 n t k

/-- The difference the body squares: the positive part less the row's mean. -/
theorem dev_at (n : Fin 128) (t : Fin 96) (k : Fin 128) :
    subf (k0_pay2 (F := Ideal) P0 P1 P2 P3 P4 P5 P6)
        (broadcastTo S128x96x128 (divf (shapeCast S128x96x1 (multiReduction .add [2] S128x96
            (k0_pay2 (F := Ideal) P0 P1 P2 P3 P4 P5 P6) 0x00000000#32 reduces_S128x96x128_S128x96 (.inl rfl) rfl)
            shapeCasts_S128x96_S128x96x1) (broadcast S128x96x1 (Scalar.ofBits .f32 0x43000000#32)))
          broadcasts_S128x96x1_S128x96x128) (ix3 n t k)
      = dev (preBlk P0 P1 P2 P3 P4 P5 P6 n t) k := by
  rw [subf_apply, last_at, divf_apply, unsqueeze_at, broadcast_apply, act_at, sum_act_at]
  rfl

/-- The second lane sum: the sum of the squared deviations. -/
theorem sum_sq_at (n : Fin 128) (t : Fin 96) :
    multiReduction .add [2] S128x96
        (mulf
          (subf (k0_pay2 (F := Ideal) P0 P1 P2 P3 P4 P5 P6)
            (broadcastTo S128x96x128 (divf (shapeCast S128x96x1 (multiReduction .add [2] S128x96
                (k0_pay2 (F := Ideal) P0 P1 P2 P3 P4 P5 P6) 0x00000000#32 reduces_S128x96x128_S128x96 (.inl rfl) rfl)
                shapeCasts_S128x96_S128x96x1) (broadcast S128x96x1 (Scalar.ofBits .f32 0x43000000#32)))
              broadcasts_S128x96x1_S128x96x128))
          (subf (k0_pay2 (F := Ideal) P0 P1 P2 P3 P4 P5 P6)
            (broadcastTo S128x96x128 (divf (shapeCast S128x96x1 (multiReduction .add [2] S128x96
                (k0_pay2 (F := Ideal) P0 P1 P2 P3 P4 P5 P6) 0x00000000#32 reduces_S128x96x128_S128x96 (.inl rfl) rfl)
                shapeCasts_S128x96_S128x96x1) (broadcast S128x96x1 (Scalar.ofBits .f32 0x43000000#32)))
              broadcasts_S128x96x1_S128x96x128)))
        0x00000000#32 reduces_S128x96x128_S128x96 (.inl rfl) rfl (ix2 n t)
      = ∑ k : Fin 128, dev (preBlk P0 P1 P2 P3 P4 P5 P6 n t) k * dev (preBlk P0 P1 P2 P3 P4 P5 P6 n t) k := by
  refine (lane_sum_at _ _ _ _ n t).trans ?_
  refine Finset.sum_congr rfl fun k _ => ?_
  rw [mulf_apply, dev_at]

/-- THE BLOCK: the entry the body stores at (0, n, t, k) is the layer normalisation at `k` of the row of
    pre-activations, scaled by the `γ` row `P7` and shifted by the `β` row `P8`. -/
theorem block_at (n : Fin 128) (t : Fin 96) (k : Fin 128) :
    E9 (F := Ideal) P0 P1 P2 P3 P4 P5 P6 P7 P8 (ix4 (0 : Fin 1) n t k)
      = rowNorm (preBlk P0 P1 P2 P3 P4 P5 P6 n t) (fun k' => P7 (ix2 (0 : Fin 1) k')) (fun k' => P8 (ix2 (0 : Fin 1) k')) k := by
  have e0 : ix9_0 (ix4 (0 : Fin 1) n t k) = ix3 n t k := by
    refine funext fun a => ?_; match a with | ⟨0, _⟩ => rfl | ⟨1, _⟩ => rfl | ⟨2, _⟩ => rfl
  have e1 : ix9_1 (ix4 (0 : Fin 1) n t k) = ix2 n t := by
    refine funext fun a => ?_; match a with | ⟨0, _⟩ => rfl | ⟨1, _⟩ => rfl
  have e2 : ix9_2 (ix4 (0 : Fin 1) n t k) = ix2 n t := by
    refine funext fun a => ?_; match a with | ⟨0, _⟩ => rfl | ⟨1, _⟩ => rfl
  have e3 : ix9_3 (ix4 (0 : Fin 1) n t k) = ix2 (0 : Fin 1) k := by
    refine funext fun a => ?_; match a with | ⟨0, _⟩ => rfl | ⟨1, _⟩ => rfl
  have e4 : ix9_4 (ix4 (0 : Fin 1) n t k) = ix2 (0 : Fin 1) k := by
    refine funext fun a => ?_; match a with | ⟨0, _⟩ => rfl | ⟨1, _⟩ => rfl
  show FloatOps.addf (FloatOps.mulf (FloatOps.mulf (FloatOps.subf _ (FloatOps.divf _ _)) (FloatOps.rsqrt (FloatOps.addf (FloatOps.divf _ _) _))) _) _ = _
  rw [e0, e1, e2, e3, e4, act_at, sum_act_at, sum_sq_at]
  rfl

end Block

end Cert.KernelIdeal.BlockSpec

end
-- ==== Proof.ArrayValue.lean ====
/-
  From the grid points' blocks to the whole result array.

  The grid has 16 × 2 points: point (b, q) takes batch entry `b` and nodes `128·q … 128·q + 127`. Its x block is
  rows (b, 128·q + n, ·) of x, its node block rows 128·q + n of the node embedding, and every other operand is
  staged whole (the four 128-vectors as the [1,128] rows the program's reshapes make of them). So the block the
  body leaves at that point is the specified array read through the point's block of the result, and since the
  blocks of the 32 points tile the result array, the array ends holding the specified function everywhere.
-/
import proofs.«131873_j19224273616920_1_alg».proof.Proof.Gen.KernelIdeal.Value
import proofs.«131873_j19224273616920_1_alg».proof.Proof.BlockSpec
import Idealize.ShloMosaic.Lib.Pipeline.Value
import Idealize.ShloMosaic.Lib.StableHlo.Run
import Idealize.ShloMosaic.Lib.Tactic

noncomputable section

namespace Cert.KernelIdeal.ArrayValue

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)
open Cert.LayerSpec Cert.KernelIdeal.BlockSpec

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The index maps, decided over the 32 grid points -/

/-- The x block moves with the result block on the batch and node axes, the node block on the node axis, every other
    window stays at block 0, and the result's block indices range over 16 × 2. -/
theorem grid_facts : ∀ t : Fin cfg0.N,
    (win0_0.index t (0 : Fin 3) = win0_9.index t (0 : Fin 4) ∧ win0_0.index t (1 : Fin 3) = win0_9.index t (1 : Fin 4)
      ∧ win0_0.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = win0_9.index t (1 : Fin 4) ∧ win0_7.index t (1 : Fin 2) = 0)
    ∧ (win0_8.index t (0 : Fin 2) = 0 ∧ win0_8.index t (1 : Fin 2) = 0)
    ∧ (win0_9.index t (0 : Fin 4) < 16 ∧ win0_9.index t (1 : Fin 4) < 2
      ∧ win0_9.index t (2 : Fin 4) = 0 ∧ win0_9.index t (3 : Fin 4) = 0) :=
  (by decide +kernel : ∀ t : Fin grid0.N, _)

/-- Every (batch entry, node half) is some point's. -/
theorem grid_onto : ∀ (b : Fin 16) (q : Fin 2), ∃ t : Fin cfg0.N, win0_9.index t = ![b.val, q.val, 0, 0] :=
  (by decide +kernel : ∀ (b : Fin 16) (q : Fin 2), ∃ t : Fin grid0.N, win0_9.index t = ![b.val, q.val, 0, 0])

/-- Node `n` of the half `q`. -/
def nodeOf (q : Nat) (hq : q < 2) (n : Fin 128) : Fin 256 := ⟨q * 128 + n.val, by have := n.isLt; omega⟩

/-! ## The four 128-vectors as the region finds them: [1,128] rows -/

theorem V_main_v0 (c : Dev nD) : (V m c main_v0 : S1x128.Idx → EReal)
    = shapeCast S1x128 (m ((c : Thread nD τ).loc main_arg2)) shapeCasts_S128_S1x128 := by
  dsimp only [Gen.V, Gen.hostOps0]; after_results; rfl
theorem V_main_v1 (c : Dev nD) : (V m c main_v1 : S1x128.Idx → EReal)
    = shapeCast S1x128 (m ((c : Thread nD τ).loc main_arg4)) shapeCasts_S128_S1x128 := by
  dsimp only [Gen.V, Gen.hostOps0]; after_results; rfl
theorem V_main_v2 (c : Dev nD) : (V m c main_v2 : S1x128.Idx → EReal)
    = shapeCast S1x128 (m ((c : Thread nD τ).loc main_arg5)) shapeCasts_S128_S1x128 := by
  dsimp only [Gen.V, Gen.hostOps0]; after_results; rfl
theorem V_main_v3 (c : Dev nD) : (V m c main_v3 : S1x128.Idx → EReal)
    = shapeCast S1x128 (m ((c : Thread nD τ).loc main_arg6)) shapeCasts_S128_S1x128 := by
  dsimp only [Gen.V, Gen.hostOps0]; after_results; rfl

/-- A 128-vector seen as a [1,128] row: entry (i0, i1) with i0 = 0 is entry i1. -/
theorem rowcast_at (v : S128.Idx → EReal) (h : S128.ShapeCasts S1x128) (i : S1x128.Idx) (k : Fin 128)
    (hi0 : (i 0).val = 0) (hi1 : (i 1).val = k.val) : shapeCast S1x128 v h i = v (ix1 k) :=
  shapeCast_apply v h i (ix1 k) (by
    rw [Shape.rowMajor_val_one, Shape.rowMajor_val_two]
    show k.val = (i 0).val * 128 + (i 1).val; omega)

/-! ## Each window's block at a point, as entries of the argument arrays -/

/-- The x block: rows (b, 128·q + n, ·) of x. -/
theorem xblk_at (c : Dev nD) (t : Fin cfg0.N) (z : Fin 1) (n : Fin 128) (s : Fin 96) (i : S16x256x96.Idx)
    (h0 : (i 0).val = win0_9.index t (0 : Fin 4)) (h1 : (i 1).val = win0_9.index t (1 : Fin 4) * 128 + n.val)
    (h2 : (i 2).val = s.val) :
    (iblk m c 0 t : Vec Ideal S1x128x96 .f32) (ix3 z n s) = (m ((c : Thread nD τ).loc main_arg0) : S16x256x96.Idx → EReal) i := by
  obtain ⟨⟨e0, e1, e2⟩, -⟩ := grid_facts t
  unfold iblk
  rw [View.read_apply]
  show V m c main_arg0 _ = _
  rw [V_main_arg0]
  congr 1
  funext a
  apply Fin.ext
  have hz : z.val = 0 := by have := z.isLt; omega
  match a with
  | ⟨0, _⟩ => show win0_0.index t 0 * 1 + 1 * z.val = (i 0).val; rw [e0, h0, hz]; omega
  | ⟨1, _⟩ => show win0_0.index t 1 * 128 + 1 * n.val = (i 1).val; rw [e1, h1]; omega
  | ⟨2, _⟩ => show win0_0.index t 2 * 96 + 1 * s.val = (i 2).val; rw [e2, h2]; omega

/-- The node block: rows 128·q + n of the node embedding. -/
theorem nodeblk_at (c : Dev nD) (t : Fin cfg0.N) (n : Fin 128) (h : Fin 128) (i : S256x128.Idx)
    (h0 : (i 0).val = win0_9.index t (1 : Fin 4) * 128 + n.val) (h1 : (i 1).val = h.val) :
    (iblk m c 7 t : Vec Ideal S128x128 .f32) (ix2 n h) = (m ((c : Thread nD τ).loc main_arg7) : S256x128.Idx → EReal) i := by
  obtain ⟨-, -, -, -, -, -, -, ⟨e0, e1⟩, -⟩ := grid_facts t
  unfold iblk
  rw [View.read_apply]
  show V m c main_arg7 _ = _
  rw [V_main_arg7]
  congr 1
  funext a
  apply Fin.ext
  match a with
  | ⟨0, _⟩ => show win0_7.index t 0 * 128 + 1 * n.val = (i 0).val; rw [e0, h0]; omega
  | ⟨1, _⟩ => show win0_7.index t 1 * 128 + 1 * h.val = (i 1).val; rw [e1, h1]; omega

/-- The projection weights, staged whole. -/
theorem wpblk_eq (c : Dev nD) (t : Fin cfg0.N) :
    (iblk m c 1 t : Vec Ideal S96x128 .f32) = m ((c : Thread nD τ).loc main_arg1) := by
  obtain ⟨-, ⟨e0, e1⟩, -⟩ := grid_facts t
  funext y
  unfold iblk
  rw [View.read_apply]
  show V m c main_arg1 _ = _
  rw [V_main_arg1]
  congr 1
  funext a
  apply Fin.ext
  match a with
  | ⟨0, _⟩ => show win0_1.index t 0 * 96 + 1 * (y 0).val = (y 0).val; rw [e0]; omega
  | ⟨1, _⟩ => show win0_1.index t 1 * 128 + 1 * (y 1).val = (y 1).val; rw [e1]; omega

/-- The 384-row weight matrix, staged whole. -/
theorem wfblk_eq (c : Dev nD) (t : Fin cfg0.N) :
    (iblk m c 3 t : Vec Ideal S384x128 .f32) = m ((c : Thread nD τ).loc main_arg3) := by
  obtain ⟨-, -, -, ⟨e0, e1⟩, -⟩ := grid_facts t
  funext y
  unfold iblk
  rw [View.read_apply]
  show V m c main_arg3 _ = _
  rw [V_main_arg3]
  congr 1
  funext a
  apply Fin.ext
  match a with
  | ⟨0, _⟩ => show win0_3.index t 0 * 384 + 1 * (y 0).val = (y 0).val; rw [e0]; omega
  | ⟨1, _⟩ => show win0_3.index t 1 * 128 + 1 * (y 1).val = (y 1).val; rw [e1]; omega

/-- The time embedding, staged whole. -/
theorem tmblk_eq (c : Dev nD) (t : Fin cfg0.N) :
    (iblk m c 8 t : Vec Ideal S96x128 .f32) = m ((c : Thread nD τ).loc main_arg8) := by
  obtain ⟨-, -, -, -, -, -, -, -, ⟨e0, e1⟩, -⟩ := grid_facts t
  funext y
  unfold iblk
  rw [View.read_apply]
  show V m c main_arg8 _ = _
  rw [V_main_arg8]
  congr 1
  funext a
  apply Fin.ext
  match a with
  | ⟨0, _⟩ => show win0_8.index t 0 * 96 + 1 * (y 0).val = (y 0).val; rw [e0]; omega
  | ⟨1, _⟩ => show win0_8.index t 1 * 128 + 1 * (y 1).val = (y 1).val; rw [e1]; omega

/-- The projection bias as its [1,128] row. -/
theorem bprow_at (c : Dev nD) (t : Fin cfg0.N) (z : Fin 1) (k : Fin 128) :
    (iblk m c 2 t : Vec Ideal S1x128 .f32) (ix2 z k) = (m ((c : Thread nD τ).loc main_arg2) : S128.Idx → EReal) (ix1 k) := by
  obtain ⟨-, -, ⟨e0, e1⟩, -⟩ := grid_facts t
  have hz : z.val = 0 := by have := z.isLt; omega
  unfold iblk
  rw [View.read_apply]
  show V m c main_v0 _ = _
  rw [V_main_v0]
  refine rowcast_at _ _ _ k ?_ ?_
  · show win0_2.index t 0 * 1 + 1 * z.val = 0; rw [e0, hz]
  · show win0_2.index t 1 * 128 + 1 * k.val = k.val; rw [e1]; omega

/-- The bias of the fused layer as its [1,128] row. -/
theorem bfrow_at (c : Dev nD) (t : Fin cfg0.N) (z : Fin 1) (k : Fin 128) :
    (iblk m c 4 t : Vec Ideal S1x128 .f32) (ix2 z k) = (m ((c : Thread nD τ).loc main_arg4) : S128.Idx → EReal) (ix1 k) := by
  obtain ⟨-, -, -, -, ⟨e0, e1⟩, -⟩ := grid_facts t
  have hz : z.val = 0 := by have := z.isLt; omega
  unfold iblk
  rw [View.read_apply]
  show V m c main_v1 _ = _
  rw [V_main_v1]
  refine rowcast_at _ _ _ k ?_ ?_
  · show win0_4.index t 0 * 1 + 1 * z.val = 0; rw [e0, hz]
  · show win0_4.index t 1 * 128 + 1 * k.val = k.val; rw [e1]; omega

/-- The scale `γ` as its [1,128] row. -/
theorem gammarow_at (c : Dev nD) (t : Fin cfg0.N) (z : Fin 1) (k : Fin 128) :
    (iblk m c 5 t : Vec Ideal S1x128 .f32) (ix2 z k) = (m ((c : Thread nD τ).loc main_arg5) : S128.Idx → EReal) (ix1 k) := by
  obtain ⟨-, -, -, -, -, ⟨e0, e1⟩, -⟩ := grid_facts t
  have hz : z.val = 0 := by have := z.isLt; omega
  unfold iblk
  rw [View.read_apply]
  show V m c main_v2 _ = _
  rw [V_main_v2]
  refine rowcast_at _ _ _ k ?_ ?_
  · show win0_5.index t 0 * 1 + 1 * z.val = 0; rw [e0, hz]
  · show win0_5.index t 1 * 128 + 1 * k.val = k.val; rw [e1]; omega

/-- The shift `β` as its [1,128] row. -/
theorem betarow_at (c : Dev nD) (t : Fin cfg0.N) (z : Fin 1) (k : Fin 128) :
    (iblk m c 6 t : Vec Ideal S1x128 .f32) (ix2 z k) = (m ((c : Thread nD τ).loc main_arg6) : S128.Idx → EReal) (ix1 k) := by
  obtain ⟨-, -, -, -, -, -, ⟨e0, e1⟩, -⟩ := grid_facts t
  have hz : z.val = 0 := by have := z.isLt; omega
  unfold iblk
  rw [View.read_apply]
  show V m c main_v3 _ = _
  rw [V_main_v3]
  refine rowcast_at _ _ _ k ?_ ?_
  · show win0_6.index t 0 * 1 + 1 * z.val = 0; rw [e0, hz]
  · show win0_6.index t 1 * 128 + 1 * k.val = k.val; rw [e1]; omega

/-! ## One point's block is the specified array's block -/

/-- For blocks that are the stated entries of arrays `A0 … A8` — the x and node blocks the rows of batch entry `b`
    and node half `q`, the rest whole or a [1,128] row of a 128-vector — what the body leaves at block index `y` is
    the specified array at (b, 128·q + y₁, y₂, y₃). -/
theorem point_eq (x0 : Vec Ideal S1x128x96 .f32) (x1 : Vec Ideal S96x128 .f32) (x2 : Vec Ideal S1x128 .f32)
    (x3 : Vec Ideal S384x128 .f32) (x4 x5 x6 : Vec Ideal S1x128 .f32) (x7 : Vec Ideal S128x128 .f32)
    (x8 : Vec Ideal S96x128 .f32)
    (A0 : S16x256x96.Idx → EReal) (A1 : S96x128.Idx → EReal) (A2 : S128.Idx → EReal) (A3 : S384x128.Idx → EReal)
    (A4 A5 A6 : S128.Idx → EReal) (A7 : S256x128.Idx → EReal) (A8 : S96x128.Idx → EReal)
    (b : Fin 16) (q : Nat) (hq : q < 2)
    (h0 : ∀ (z : Fin 1) (n : Fin 128) (s : Fin 96), x0 (ix3 z n s) = A0 (ix3 b (nodeOf q hq n) s))
    (h1 : x1 = A1) (h2 : ∀ (z : Fin 1) (k : Fin 128), x2 (ix2 z k) = A2 (ix1 k)) (h3 : x3 = A3)
    (h4 : ∀ (z : Fin 1) (k : Fin 128), x4 (ix2 z k) = A4 (ix1 k))
    (h5 : ∀ (z : Fin 1) (k : Fin 128), x5 (ix2 z k) = A5 (ix1 k))
    (h6 : ∀ (z : Fin 1) (k : Fin 128), x6 (ix2 z k) = A6 (ix1 k))
    (h7 : ∀ (n h : Fin 128), x7 (ix2 n h) = A7 (ix2 (nodeOf q hq n) h)) (h8 : x8 = A8)
    (y : S1x128x96x128.Idx) :
    out0_9 x0 x1 x2 x3 x4 x5 x6 x7 x8 y = G A0 A1 A2 A3 A4 A7 A8 A5 A6 (ix4 b (nodeOf q hq (y 1)) (y 2) (y 3)) := by
  obtain ⟨z, n, t, k, rfl⟩ : ∃ (z : Fin 1) (n : Fin 128) (t : Fin 96) (k : Fin 128), y = ix4 z n t k :=
    ⟨y 0, y 1, y 2, y 3, eq_ix4 y⟩
  obtain rfl : z = 0 := Subsingleton.elim _ _
  unfold out0_9
  refine (canon9_eq _ _ _ _ _ _ _ _ _ _).trans ?_
  simp only [View.ld_unit_zero (S := S1x128x96) hz3, View.ld_unit_zero (S := S96x128) hz2,
    View.ld_unit_zero (S := S1x128) hz2, View.ld_unit_zero (S := S384x128) hz2, View.ld_unit_zero (S := S128x128) hz2]
  rw [block_at]
  show _ = rowNorm (fun k' => pre A0 A1 A2 A3 A4 A7 A8 b (nodeOf q hq n) t k') (fun k' => A5 (ix1 k')) (fun k' => A6 (ix1 k')) k
  refine rowNorm_congr (fun k' => ?_) (fun k' => h5 0 k') (fun k' => h6 0 k') k
  subst h1 h3 h8
  unfold preBlk pre fromProj fromNode fromTime proj
  simp only [h0, h2, h4, h7]

/-! ## The whole array -/

/-- The specified array of core `c`'s arguments. -/
abbrev result (c : Dev nD) : S16x256x96x128.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg7))
    (m ((c : Thread nD τ).loc main_arg8)) (m ((c : Thread nD τ).loc main_arg5)) (m ((c : Thread nD τ).loc main_arg6))

/-- What point `t` writes back is the specified array read through the point's block of the result. -/
theorem flushed_eq (c : Dev nD) (t : Fin cfg0.N) :
    (dats m 0 c).flushed 9 t = ((cfg0.win 9).blk t).view.read (Elt Ideal) (result m c) := by
  obtain ⟨-, -, -, -, -, -, -, -, -, ⟨b0, b1, b2, b3⟩⟩ := grid_facts t
  rw [flushed9]
  funext y
  rw [View.read_apply]
  refine (point_eq _ _ _ _ _ _ _ _ _ _ _ _ _ _ _ _ _ _ ⟨win0_9.index t (0 : Fin 4), b0⟩ (win0_9.index t (1 : Fin 4)) b1
    (fun z n s => xblk_at m c t z n s _ rfl rfl rfl) (wpblk_eq m c t) (fun z k => bprow_at m c t z k) (wfblk_eq m c t)
    (fun z k => bfrow_at m c t z k) (fun z k => gammarow_at m c t z k) (fun z k => betarow_at m c t z k)
    (fun n h => nodeblk_at m c t n h _ rfl rfl) (tmblk_eq m c t) y).trans ?_
  refine congrArg (result m c) (funext fun a => Fin.ext ?_)
  have hy0 : (y 0).val < 1 := (y 0).isLt
  match a with
  | ⟨0, _⟩ => show win0_9.index t 0 = win0_9.index t 0 * 1 + 1 * (y 0).val; omega
  | ⟨1, _⟩ => show win0_9.index t 1 * 128 + (y 1).val = win0_9.index t 1 * 128 + 1 * (y 1).val; omega
  | ⟨2, _⟩ => show (y 2).val = win0_9.index t 2 * 96 + 1 * (y 2).val; rw [b2]; omega
  | ⟨3, _⟩ => show (y 3).val = win0_9.index t 3 * 128 + 1 * (y 3).val; rw [b3]; omega

/-- An index of the result is in point `t`'s block iff each coordinate is in the block's range on its axis. -/
theorem mem_blk (t : Fin cfg0.N) (i : S16x256x96x128.Idx) :
    i ∈ ((cfg0.win 9).blk t).view.set ↔ ∀ a : Fin 4, win0_9.index t a * S1x128x96x128.size a ≤ (i a).val
      ∧ (i a).val < win0_9.index t a * S1x128x96x128.size a + S1x128x96x128.size a := by
  show i ∈ ((View.whole main_v4).slice (win0_9.rect t)).set ↔ _
  rw [View.set_slice_whole, Rect.mem_set_unit]
  exact Iff.rfl

/-- The 32 blocks tile the result: index (b, n, t, k) is in the block of the point for batch entry `b` and node half
    `n / 128`. -/
theorem cover (i : S16x256x96x128.Idx) :
    ∃ t : Fin cfg0.N, (cfg0.win 9).flush t = true ∧ i ∈ ((cfg0.win 9).blk t).view.set := by
  have hi0 : (i 0).val < 16 := (i 0).isLt
  have hi1 : (i 1).val < 256 := (i 1).isLt
  have hi2 : (i 2).val < 96 := (i 2).isLt
  have hi3 : (i 3).val < 128 := (i 3).isLt
  obtain ⟨t, ht⟩ := grid_onto ⟨(i 0).val, hi0⟩ ⟨(i 1).val / 128, by omega⟩
  have q0 : win0_9.index t (0 : Fin 4) = (i 0).val := congrFun ht 0
  have q1 : win0_9.index t (1 : Fin 4) = (i 1).val / 128 := congrFun ht 1
  have q2 : win0_9.index t (2 : Fin 4) = 0 := congrFun ht 2
  have q3 : win0_9.index t (3 : Fin 4) = 0 := congrFun ht 3
  refine ⟨t, flush0_9 t, ?_⟩
  rw [mem_blk]
  intro a
  match a with
  | ⟨0, _⟩ => show win0_9.index t 0 * 1 ≤ (i 0).val ∧ (i 0).val < win0_9.index t 0 * 1 + 1; rw [q0]; omega
  | ⟨1, _⟩ => show win0_9.index t 1 * 128 ≤ (i 1).val ∧ (i 1).val < win0_9.index t 1 * 128 + 128; rw [q1]; omega
  | ⟨2, _⟩ => show win0_9.index t 2 * 96 ≤ (i 2).val ∧ (i 2).val < win0_9.index t 2 * 96 + 96; rw [q2]; omega
  | ⟨3, _⟩ => show win0_9.index t 3 * 128 ≤ (i 3).val ∧ (i 3).val < win0_9.index t 3 * 128 + 128; rw [q3]; omega

/-- So the result array ends holding the specified function of the arguments. -/
theorem final (c : Dev nD) : (dats m 0 c).arrAt 9 cfg0.N = result m c :=
  (dats m 0 c).arrAt_eq_of_cover 9 (result m c) (fun t _ => flushed_eq m c t) (cover)

/-- The run, read: every weakly fair execution ends with the result array at the specified function of the arguments
    and the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (run_blocks m ρ)

end Cert.KernelIdeal.ArrayValue

end
-- ==== Proof.lean ====
/-
  The kernel and the reference compute one function.

  Both take x[16,256,96], projection weights and bias, a 384-row weight matrix applied to the row
  [projection | node embedding | time embedding] with its bias, and a scale and shift, and return, for every batch
  entry, node and time step, the layer normalisation along the 128 features of the positive part of that row's image
  (Proof/LayerSpec.lean states it index by index over the extended reals). The kernel produces it block by block over
  a 16 × 2 grid (Proof/BlockSpec.lean: one block's entries; Proof/ArrayValue.lean: the blocks tile the array), the
  reference by whole-array operations (Proof/RefSpec.lean). They differ in one place only — the bias is added before
  the time term in one and after it in the other — and addition of extended reals is commutative and associative, so
  the results are equal at every input, finite or not: the precondition is never opened.
  The frames of the two kernel programs are the generated ones; the reference's frame is its generated run with the
  result dropped; the idealization rewrote nothing, so there is nothing to preserve.
-/
import proofs.«131873_j19224273616920_1_alg».proof.Defs
import proofs.«131873_j19224273616920_1_alg».proof.Proof.Gen.Kernel
import proofs.«131873_j19224273616920_1_alg».proof.Proof.Gen.Kernel.Skeleton
import proofs.«131873_j19224273616920_1_alg».proof.Proof.Gen.Kernel.Launch
import proofs.«131873_j19224273616920_1_alg».proof.Proof.Gen.Kernel.Points
import proofs.«131873_j19224273616920_1_alg».proof.Proof.Gen.Kernel.Frame
import proofs.«131873_j19224273616920_1_alg».proof.Proof.Gen.KernelIdeal
import proofs.«131873_j19224273616920_1_alg».proof.Proof.Gen.KernelIdeal.Skeleton
import proofs.«131873_j19224273616920_1_alg».proof.Proof.Gen.KernelIdeal.Launch
import proofs.«131873_j19224273616920_1_alg».proof.Proof.Gen.KernelIdeal.Points
import proofs.«131873_j19224273616920_1_alg».proof.Proof.Gen.KernelIdeal.Frame
import proofs.«131873_j19224273616920_1_alg».proof.Proof.Gen.ReferenceIdeal
import proofs.«131873_j19224273616920_1_alg».proof.Proof.Gen.Pre_finite_inputs
import proofs.«131873_j19224273616920_1_alg».proof.Proof.Gen.KernelIdeal.Value
import proofs.«131873_j19224273616920_1_alg».proof.Proof.Gen.ReferenceIdeal.Run
import proofs.«131873_j19224273616920_1_alg».proof.Proof.Gen.ReferenceIdeal.Read
import proofs.«131873_j19224273616920_1_alg».proof.Proof.RefSpec
import proofs.«131873_j19224273616920_1_alg».proof.Proof.ArrayValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the specified array of those arguments. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v45_eq, Cert.ReferenceIdeal.RefSpec.ref_eq, a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
